-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x4096 : Shape := ⟨2, ![4096, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S16384x4096 .f32) (main_arg1 : FVec F S4096x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S16384x4096 : Shape := ⟨2, ![16384, 4096]⟩
abbrev S4096x4096 : Shape := ⟨2, ![4096, 4096]⟩
abbrev S512x4096 : Shape := ⟨2, ![512, 4096]⟩
abbrev S1024x4096 : Shape := ⟨2, ![1024, 4096]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1024x4096, .f32⟩
  | .local _ .vmem, ⟨3, _⟩ => ⟨S1024x4096, .f32⟩
  | .local _ .vmem, ⟨4, _⟩ => ⟨S512x1024, .f32⟩
  | .local _ .vmem, ⟨5, _⟩ => ⟨S512x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S512x4096_S512x4096_0_0 : ∀ a, (![0, 0] : Fin 2 → Nat) a + S512x4096.size a ≤ S512x4096.size a
  h_S512x4096 : 0 < S512x4096.numel
  inb_S1024x4096_S1024x4096_0_0 : ∀ a, (![0, 0] : Fin 2 → Nat) a + S1024x4096.size a ≤ S1024x4096.size a
  h_S1024x4096 : 0 < S1024x4096.numel
  inb_S512x1024_S512x1024_0_0 : ∀ a, (![0, 0] : Fin 2 → Nat) a + S512x1024.size a ≤ S512x1024.size a
  h_S512x1024 : 0 < S512x1024.numel
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .f32 = 32 ∨ (Rect.block (s := S4096x4096) S1024x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x4096.size a
  hwx0_2 : ∀ i : grid0.Coords, EltTy.bits .f32 = 32 ∨ (Rect.block (s := S16384x4096) S512x1024.size (cc0_transform_2 i) (hinb0_2 i)).WholeWords (EltTy.packing .f32)

variable [Facts₀]

def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096x4096 : Shape := ⟨2, ![4096, 4096]⟩
abbrev S2048x4096 : Shape := ⟨2, ![2048, 4096]⟩
abbrev S4096x2048 : Shape := ⟨2, ![4096, 2048]⟩
abbrev S16384x2048 : Shape := ⟨2, ![16384, 2048]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S2048x4096, .f32⟩
  | .hbm, ⟨3, _⟩ => ⟨S4096x2048, .f32⟩
  | .hbm, ⟨4, _⟩ => ⟨S16384x2048, .f32⟩
  | .hbm, ⟨5, _⟩ => ⟨S2048x4096, .f32⟩
  | .hbm, ⟨6, _⟩ => ⟨S4096x2048, .f32⟩
  | .hbm, ⟨7, _⟩ => ⟨S16384x2048, .f32⟩
  | .hbm, ⟨8, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]

class Facts₀ : Prop where
  slices_S4096x4096_S2048x4096_0_0 : S4096x4096.Slices ![0, 0] S2048x4096
  transposes_S2048x4096_S4096x2048_1_0 : S2048x4096.Transposes [1, 0] S4096x2048
  slices_S4096x4096_S2048x4096_2048_0 : S4096x4096.Slices ![2048, 0] S2048x4096
  concatenates_S16384x2048_S16384x2048_S16384x4096_d1 : Shape.Concatenates [S16384x2048, S16384x2048] S16384x4096 1
  dot_S16384x4096_S4096x2048_S16384x2048_1_0_0_1_n_n_wf : DotDims.WF S16384x4096 S4096x2048 S16384x2048 [1] [0] [0] [1] [] []

variable [Facts₀]

def dot_S16384x4096_S4096x2048_S16384x2048_1_0_0_1_n_n : DotDims S16384x4096 S4096x2048 S16384x2048 where
  lhsContracting := [1]
  rhsContracting := [0]
  lhsNonContracting := [0]
  rhsNonContracting := [1]
  lhsBatch := []
  rhsBatch := []
  wf := dot_S16384x4096_S4096x2048_S16384x2048_1_0_0_1_n_n_wf

class Facts : Prop extends Facts₀ where

variable [Facts]
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.Spec.lean ====
/-
  The product of a matrix with the transpose of another, entry by entry.

  For `x` of 16384 rows and 4096 columns and `W` of 4096 rows and 4096 columns, entry (r, c) of `x · Wᵀ` is the sum
  over k of x[r, k] · W[c, k]: row r of `x` against row c of `W`. Over the extended reals the sum is taken in
  the additive commutative monoid, so it does not depend on any order or grouping of its 4096 terms.
-/
import Idealize.ShloMosaic.PureOps.Ideal.Laws
import Idealize.ShloMosaic.Lib.ValueIdx

noncomputable section

open scoped BigOperators

namespace Cert.Spec

open Idealize.ShloMosaic Idealize.ShloMosaic.ValueIdx

/-- Entry (r, c) of `x · Wᵀ`: row r of `x` against row c of `W`. -/
def xWt (x : (⟨2, ![16384, 4096]⟩ : Shape).Idx → EReal) (W : (⟨2, ![4096, 4096]⟩ : Shape).Idx → EReal) :
    (⟨2, ![16384, 4096]⟩ : Shape).Idx → EReal :=
  fun i => ∑ k : Fin 4096, x (ix2 (i 0) k) * W (ix2 (i 1) k)

theorem xWt_apply (x : (⟨2, ![16384, 4096]⟩ : Shape).Idx → EReal) (W : (⟨2, ![4096, 4096]⟩ : Shape).Idx → EReal)
    (r : Fin 16384) (c : Fin 4096) :
    xWt x W (ix2 r c) = ∑ k : Fin 4096, x (ix2 r k) * W (ix2 c k) := rfl

end Cert.Spec

end
-- ==== Proof.KernelBlock.lean ====
/-
  One block of the tiled product, entry by entry.

  The body multiplies a block of 512 rows of `x` (all 4096 columns) with a block of 1024 rows of `W` (all 4096
  columns), contracting the column axis of both, into a zero accumulator. Entry (p, q) of the 512 × 1024 result is
  therefore the sum over k of x₀[p, k] · x₁[q, k]: the contraction has one axis of extent 4096, the left operand's
  free axis carries the result's row and the right operand's free axis the result's column.

  When the left block is rows `bi·512 …` of an array `X` and the right block rows `bj·1024 …` of an array `W`, that
  entry is entry (bi·512 + p, bj·1024 + q) of `X · Wᵀ`.
-/
import proofs.«170092_g14525579395117_cont_week2b_1131_2_alg».proof.Proof.Gen.KernelIdeal.Skeleton
import proofs.«170092_g14525579395117_cont_week2b_1131_2_alg».proof.Proof.LibContraction
import proofs.«170092_g14525579395117_cont_week2b_1131_2_alg».proof.Proof.Spec

noncomputable section

open scoped BigOperators

namespace Cert.KernelIdeal.Block

open Cert.KernelIdeal Cert.KernelIdeal.Gen Idealize.ShloMosaic Idealize.ShloMosaic.ValueIdx Cert.Lib

/-- The body's dimension numbers: contract axis 1 of both operands, no batch axis. -/
abbrev dims : DotDims S512x4096 S1024x4096 S512x1024 := dot_S512x4096_S1024x4096_S512x1024_1_1_0_0_n_n

/-- The left operand's index at result entry (p, q) and contraction position k is (p, k). -/
theorem lhs_at (p : Fin 512) (q : Fin 1024) (k : Fin 4096) :
    dims.lhsIdx (ix2 p q) ((Contraction.contrFin dims (cl := 1) rfl 4096 rfl).symm k) = ix2 p k :=
  funext fun a => Fin.ext (by
    match a with
    | ⟨0, _⟩ => exact Contraction.lhs_free dims (nl := 0) rfl rfl (ix2 p q) _ (by decide)
    | ⟨1, _⟩ => exact Contraction.lhs_contracted dims (cl := 1) rfl 4096 rfl (ix2 p q) k)

/-- The right operand's index at result entry (p, q) and contraction position k is (q, k). -/
theorem rhs_at (p : Fin 512) (q : Fin 1024) (k : Fin 4096) :
    dims.rhsIdx (ix2 p q) ((Contraction.contrFin dims (cl := 1) rfl 4096 rfl).symm k) = ix2 q k :=
  funext fun a => Fin.ext (by
    match a with
    | ⟨0, _⟩ => exact Contraction.rhs_free dims (nl := 0) (nr := 0) rfl rfl rfl rfl (ix2 p q) _ (by decide)
    | ⟨1, _⟩ => exact Contraction.rhs_contracted dims (cl := 1) (cr := 1) rfl rfl 4096 rfl (ix2 p q) k)

/-- Entry (p, q) of the body's product: row p of the left block against row q of the right block. -/
theorem pay_apply (x0 : Vec Ideal S512x4096 .f32) (x1 : Vec Ideal S1024x4096 .f32) (p : Fin 512) (q : Fin 1024) :
    k0_pay1 (F := Ideal) x0 x1 (ix2 p q) = ∑ k : Fin 4096, x0 (ix2 p k) * x1 (ix2 q k) := by
  unfold k0_pay1
  refine (Ideal.matmul_constant_zero_apply dims none x0 x1 (ix2 p q)).trans ?_
  refine (Contraction.sum_contr dims (cl := 1) rfl 4096 rfl _).trans ?_
  refine Finset.sum_congr rfl fun k _ => ?_
  rw [lhs_at, rhs_at]

/-- With the left block rows `bi·512 + p` of `X` and the right block rows `bj·1024 + q` of `W`, entry (p, q) of the
    body's product is entry (bi·512 + p, bj·1024 + q) of `X · Wᵀ`. -/
theorem pay_eq_xWt (X : (⟨2, ![16384, 4096]⟩ : Shape).Idx → EReal) (W : (⟨2, ![4096, 4096]⟩ : Shape).Idx → EReal)
    (x0 : Vec Ideal S512x4096 .f32) (x1 : Vec Ideal S1024x4096 .f32) (p : Fin 512) (q : Fin 1024)
    (r : Fin 16384) (c : Fin 4096)
    (h0 : ∀ k : Fin 4096, x0 (ix2 p k) = X (ix2 r k)) (h1 : ∀ k : Fin 4096, x1 (ix2 q k) = W (ix2 c k)) :
    k0_pay1 (F := Ideal) x0 x1 (ix2 p q) = Spec.xWt X W (ix2 r c) := by
  rw [pay_apply, Spec.xWt_apply]
  exact Finset.sum_congr rfl fun k _ => by rw [h0 k, h1 k]

end Cert.KernelIdeal.Block

end
-- ==== Proof.KernelValue.lean ====
/-
  The whole output array of the tiled product.

  The grid has 4 × 32 points. At point (j, i) the output window's block is rows `i·512 …` and columns `j·1024 …` of the
  result; the first input window's block is rows `i·512 …` of `x` (every column), the second's rows `j·1024 …` of `W`
  (every column). So what the point writes back is that block of `x · Wᵀ`, and since the 32 × 4 output blocks tile
  the 16384 × 4096 array, the array ends at `x · Wᵀ`.
-/
import proofs.«170092_g14525579395117_cont_week2b_1131_2_alg».proof.Proof.Gen.KernelIdeal.Value
import proofs.«170092_g14525579395117_cont_week2b_1131_2_alg».proof.Proof.KernelBlock

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The index maps, decided over the 128 grid points: the first input's row block is the output's row block, the
    second input's row block is the output's column block, both inputs take every column, and the output's block
    indices stay below 32 and 4. -/
theorem index_facts : ∀ t : Fin cfg0.N,
    win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 31
    ∧ win0_2.index t (1 : Fin 2) ≤ 3 :=
  (by decide +kernel : ∀ t : Fin grid0.N, _)

/-- Every one of the 32 × 4 output blocks is some point's. -/
theorem index_onto : ∀ (q0 : Fin 32) (q1 : Fin 4), ∃ t : Fin cfg0.N, win0_2.index t = ![q0.val, q1.val] :=
  (by decide +kernel : ∀ (q0 : Fin 32) (q1 : Fin 4), ∃ t : Fin grid0.N, win0_2.index t = ![q0.val, q1.val])

/-- What point `t` writes back is block `t` of `x · Wᵀ` of the argument arrays. -/
theorem flushed_eq (c : Dev nD) (t : Fin cfg0.N) :
    (dats m 0 c).flushed 2 t
      = ((cfg0.win 2).blk t).view.read (Elt Ideal) (Spec.xWt (V m c main_arg0) (V m c main_arg1)) := by
  rw [Value.flushed2]
  unfold out0_2
  rw [View.canon_unit_zero origin]
  simp only [View.ld_unit_zero (S := S512x4096) origin, View.ld_unit_zero (S := S1024x4096) origin]
  obtain ⟨e0, e1, e2, e3, e4, e5⟩ := index_facts t
  funext j
  obtain ⟨p, q, rfl⟩ : ∃ (p : Fin 512) (q : Fin 1024), j = ix2 p q := ⟨j 0, j 1, eq_ix2 j⟩
  have hp : p.val < 512 := p.isLt
  have hq : q.val < 1024 := q.isLt
  refine (Block.pay_eq_xWt (V m c main_arg0) (V m c main_arg1) (iblk m c 0 t) (iblk m c 1 t) p q
    ⟨win0_2.index t (0 : Fin 2) * 512 + p.val, by omega⟩ ⟨win0_2.index t (1 : Fin 2) * 1024 + q.val, by omega⟩ ?_ ?_).trans ?_
  · intro k
    show V m c main_arg0 (((cfg0.win 0).blk t).view.emb (ix2 p k)) = _
    refine congrArg (V m c main_arg0) (funext fun a => Fin.ext ?_)
    match a with
    | ⟨0, _⟩ => show win0_0.index t (0 : Fin 2) * 512 + 1 * p.val = win0_2.index t (0 : Fin 2) * 512 + p.val; omega
    | ⟨1, _⟩ => show win0_0.index t (1 : Fin 2) * 4096 + 1 * k.val = k.val; omega
  · intro k
    show V m c main_arg1 (((cfg0.win 1).blk t).view.emb (ix2 q k)) = _
    refine congrArg (V m c main_arg1) (funext fun a => Fin.ext ?_)
    match a with
    | ⟨0, _⟩ => show win0_1.index t (0 : Fin 2) * 1024 + 1 * q.val = win0_2.index t (1 : Fin 2) * 1024 + q.val; omega
    | ⟨1, _⟩ => show win0_1.index t (1 : Fin 2) * 4096 + 1 * k.val = k.val; omega
  · show _ = Spec.xWt (V m c main_arg0) (V m c main_arg1) (((cfg0.win 2).blk t).view.emb (ix2 p q))
    refine congrArg (Spec.xWt (V m c main_arg0) (V m c main_arg1)) (funext fun a => Fin.ext ?_)
    match a with
    | ⟨0, _⟩ => show win0_2.index t (0 : Fin 2) * 512 + p.val = win0_2.index t (0 : Fin 2) * 512 + 1 * p.val; omega
    | ⟨1, _⟩ => show win0_2.index t (1 : Fin 2) * 1024 + q.val = win0_2.index t (1 : Fin 2) * 1024 + 1 * q.val; omega

/-- An index of the array is in point `t`'s block iff each coordinate is in the block's range on its axis. -/
theorem mem_block (t : Fin cfg0.N) (i : S16384x4096.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v0).slice (win0_2.rect t)).set ↔ _
  rw [View.set_slice_whole, Rect.mem_set_unit]
  exact Iff.rfl

/-- Every index of the array lies in some point's block: the point whose block indices are the row over 512 and the
    column over 1024. -/
theorem covered (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  obtain ⟨t, ht⟩ := index_onto ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The output array after the run is `x · Wᵀ` of the argument arrays. -/
theorem final (c : Dev nD) :
    (dats m 0 c).arrAt 2 cfg0.N
      = Spec.xWt (m ((c : Thread nD τ).loc main_arg0)) (m ((c : Thread nD τ).loc main_arg1)) :=
  (dats m 0 c).arrAt_eq_of_cover 2 (Spec.xWt (V m c main_arg0) (V m c main_arg1)) (fun t _ => flushed_eq m c t) covered

/-- The kernel's run: the result array ends at `x · Wᵀ` of the argument arrays, which end unchanged. -/
theorem run : θ_run defs (onTc (τ := τ) (main (F := Ideal))) ⟨m, fun _ => 0, ρ⟩ fun r => ∀ c : Dev nD,
      r.2.mem ((c : Thread nD τ).loc main_v0)
        = Spec.xWt (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefValue.lean ====
/-
  The reference's result is `x · Wᵀ`.

  The reference cuts `W` into its first 2048 rows and its last 2048 rows, transposes each half, multiplies `x` with
  each transposed half (contracting the column axis of `x` with the row axis of the transposed half), and joins the two
  16384 × 2048 products side by side. Entry (r, c) of the left product is the sum over k of x[r, k] · W[c, k]; of the
  right product, the sum over k of x[r, k] · W[2048 + c, k]. Joined along the columns, entry (r, c) of the result is
  the sum over k of x[r, k] · W[c, k] for every column c below 4096: the left product for c < 2048, the right
  product at c − 2048 otherwise.
-/
import proofs.«170092_g14525579395117_cont_week2b_1131_2_alg».proof.Proof.Gen.ReferenceIdeal.Read
import proofs.«170092_g14525579395117_cont_week2b_1131_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- Entry (r, c) of `x` times the transposed first half of `W`: row r of `x` against row c of `W`. -/
theorem left_half (x : (⟨S16384x4096, .f32⟩ : BufTy).Contents (Elt Ideal)) (W : (⟨S4096x4096, .f32⟩ : BufTy).Contents (Elt Ideal))
    (r : Fin 16384) (c : Fin 2048) (c' : Fin 4096) (hc : c'.val = c.val) :
    val_main_v2 (F := Ideal) x W (ix2 r c) = ∑ k : Fin 4096, x (ix2 r k) * W (ix2 c' k) := by
  rw [val_main_v2_apply]
  refine Finset.sum_congr rfl fun k _ => ?_
  rw [val_main_v1_apply, val_main_v0_apply]
  have el : lidx_main_v2 (ix2 r c) k = ix2 r k :=
    funext fun a => Fin.ext (by match a with | ⟨0, _⟩ => rfl | ⟨1, _⟩ => rfl)
  have er : idx_main_v0 (idx_main_v1 (ridx_main_v2 (ix2 r c) k)) = ix2 c' k :=
    funext fun a => Fin.ext (by match a with | ⟨0, _⟩ => exact hc.symm | ⟨1, _⟩ => rfl)
  rw [el, er]

/-- Entry (r, c) of `x` times the transposed second half of `W`: row r of `x` against row 2048 + c of `W`. -/
theorem right_half (x : (⟨S16384x4096, .f32⟩ : BufTy).Contents (Elt Ideal)) (W : (⟨S4096x4096, .f32⟩ : BufTy).Contents (Elt Ideal))
    (r : Fin 16384) (c : Fin 2048) (c' : Fin 4096) (hc : c'.val = 2048 + c.val) :
    val_main_v5 (F := Ideal) x W (ix2 r c) = ∑ k : Fin 4096, x (ix2 r k) * W (ix2 c' k) := by
  rw [val_main_v5_apply]
  refine Finset.sum_congr rfl fun k _ => ?_
  rw [val_main_v4_apply, val_main_v3_apply]
  have el : lidx_main_v5 (ix2 r c) k = ix2 r k :=
    funext fun a => Fin.ext (by match a with | ⟨0, _⟩ => rfl | ⟨1, _⟩ => rfl)
  have er : idx_main_v3 (idx_main_v4 (ridx_main_v5 (ix2 r c) k)) = ix2 c' k :=
    funext fun a => Fin.ext (by match a with | ⟨0, _⟩ => exact hc.symm | ⟨1, _⟩ => rfl)
  rw [el, er]

/-- The two products joined along the columns are `x · Wᵀ`. -/
theorem result_eq (x : (⟨S16384x4096, .f32⟩ : BufTy).Contents (Elt Ideal)) (W : (⟨S4096x4096, .f32⟩ : BufTy).Contents (Elt Ideal)) :
    val_main_v6 (F := Ideal) x W = Spec.xWt x W := by
  funext j
  obtain ⟨r, c, rfl⟩ : ∃ (r : Fin 16384) (c : Fin 4096), j = ix2 r c := ⟨j 0, j 1, eq_ix2 j⟩
  have hc4 : c.val < 4096 := c.isLt
  unfold val_main_v6
  rw [Spec.xWt_apply]
  by_cases hc : c.val < 2048
  · refine (concatenate_pair_apply_left (t := S16384x4096) (s₁ := S16384x2048) (s₂ := S16384x2048) (1 : Fin S16384x4096.rank)
      (val_main_v2 (F := Ideal) x W) (val_main_v5 (F := Ideal) x W) concatenates_S16384x2048_S16384x2048_S16384x4096_d1
      (ix2 r c) rfl (ix2 r (⟨c.val, hc⟩ : Fin 2048))
      (fun b => by match b with | ⟨0, _⟩ => rfl | ⟨1, _⟩ => rfl)).trans ?_
    exact left_half x W r ⟨c.val, hc⟩ c rfl
  · refine (concatenate_pair_apply_right (t := S16384x4096) (s₁ := S16384x2048) (s₂ := S16384x2048) (1 : Fin S16384x4096.rank)
      (val_main_v2 (F := Ideal) x W) (val_main_v5 (F := Ideal) x W) concatenates_S16384x2048_S16384x2048_S16384x4096_d1
      (ix2 r c) rfl rfl (ix2 r (⟨c.val - 2048, by omega⟩ : Fin 2048))
      (fun b hb => by match b, hb with | ⟨0, _⟩, _ => rfl | ⟨1, _⟩, hb => exact absurd rfl hb)
      (by show c.val - 2048 + 2048 = c.val; omega)).trans ?_
    exact right_half x W r ⟨c.val - 2048, by omega⟩ c (by show c.val = 2048 + (c.val - 2048); omega)

end Cert.ReferenceIdeal.RefValue

end
-- ==== Proof.lean ====
/-
  A tiled product against a product computed in two halves.

  The kernel computes `x · Wᵀ` for `x` of 16384 × 4096 and `W` of 4096 × 4096 block by block: on a 4 × 32 grid, each
  point multiplies 512 rows of `x` with 1024 rows of `W`, contracting their 4096 columns, and writes one 512 × 1024
  block of the result. The reference multiplies `x` with the transposed first 2048 rows of `W` and with the transposed
  last 2048 rows, and joins the two products along the columns. Over the extended reals both results have, at entry
  (r, c), the sum over k of x[r, k] · W[c, k]: the kernel because its blocks tile the result and each block entry is
  that sum; the reference because column c falls in the left product for c < 2048 and in the right one, at column
  c − 2048 against row 2048 + (c − 2048) = c of `W`, otherwise. No law of arithmetic beyond reading both sides as the
  same finite sum is used, so the inputs' finiteness plays no part.

  The three frames are the programs' runs with the results dropped; the idealization rewrote no operation, so there is
  nothing to preserve.
-/
import proofs.«170092_g14525579395117_cont_week2b_1131_2_alg».proof.Defs
import proofs.«170092_g14525579395117_cont_week2b_1131_2_alg».proof.Proof.Gen.Kernel
import proofs.«170092_g14525579395117_cont_week2b_1131_2_alg».proof.Proof.Gen.Kernel.Skeleton
import proofs.«170092_g14525579395117_cont_week2b_1131_2_alg».proof.Proof.Gen.Kernel.Launch
import proofs.«170092_g14525579395117_cont_week2b_1131_2_alg».proof.Proof.Gen.Kernel.Points
import proofs.«170092_g14525579395117_cont_week2b_1131_2_alg».proof.Proof.Gen.Kernel.Frame
import proofs.«170092_g14525579395117_cont_week2b_1131_2_alg».proof.Proof.Gen.KernelIdeal
import proofs.«170092_g14525579395117_cont_week2b_1131_2_alg».proof.Proof.Gen.KernelIdeal.Skeleton
import proofs.«170092_g14525579395117_cont_week2b_1131_2_alg».proof.Proof.Gen.KernelIdeal.Launch
import proofs.«170092_g14525579395117_cont_week2b_1131_2_alg».proof.Proof.Gen.KernelIdeal.Points
import proofs.«170092_g14525579395117_cont_week2b_1131_2_alg».proof.Proof.Gen.KernelIdeal.Frame
import proofs.«170092_g14525579395117_cont_week2b_1131_2_alg».proof.Proof.Gen.ReferenceIdeal
import proofs.«170092_g14525579395117_cont_week2b_1131_2_alg».proof.Proof.Gen.Pre_finite_inputs
import proofs.«170092_g14525579395117_cont_week2b_1131_2_alg».proof.Proof.Gen.KernelIdeal.Value
import proofs.«170092_g14525579395117_cont_week2b_1131_2_alg».proof.Proof.Gen.ReferenceIdeal.Run
import proofs.«170092_g14525579395117_cont_week2b_1131_2_alg».proof.Proof.Gen.ReferenceIdeal.Read
import proofs.«170092_g14525579395117_cont_week2b_1131_2_alg».proof.Proof.KernelValue
import proofs.«170092_g14525579395117_cont_week2b_1131_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel :=
  fun m ρ _ => Cert.Kernel.Gen.frame m ρ

/-- The idealized kernel runs and leaves its arguments unchanged. -/
theorem frame_kernel_ideal : Cert.frame_KernelIdeal :=
  fun m ρ _ => Cert.KernelIdeal.Gen.frame m ρ

/-- The idealized reference runs and leaves its arguments unchanged: its run, the result dropped. -/
theorem frame_reference_ideal : Cert.frame_ReferenceIdeal :=
  fun m ρ _ => (θ_run Cert.ReferenceIdeal.defs _ _).mono (fun _ h c => (h c).2)
    (Cert.ReferenceIdeal.Value.run (F := Ideal) m ρ)

/-- From memories agreeing on `x` and `W`, both idealized programs end with `x · Wᵀ`. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
